-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S1000000 : Shape := ⟨1, ![1000000]⟩
abbrev S250000 : Shape := ⟨1, ![250000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg8 : FVec F S256x256 .f32) (main_arg9 : FVec F S256x256 .f32) (main_arg10 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg9
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S200000x128 .f32) (main_arg1 : IVec S1000000 32) (main_arg2 : IVec S1000000 32) (main_arg3 : IVec S250000 32) (main_arg4 : IVec S250000 32) (main_arg5 : FVec F S128x256 .f32) (main_arg6 : FVec F S128x256 .f32) (main_arg7 : FVec F S256 .f32) (main_arg8 : FVec F S256x256 .f32) (main_arg9 : FVec F S256x256 .f32) (main_arg10 : FVec F S256 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x256 .f32 := Host.absf main_arg5
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg6
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_v13 main_v16
-- ==== Kernel.lean ====
abbrev S200000x128 : Shape := ⟨2, ![200000, 128]⟩
abbrev S1000000 : Shape := ⟨1, ![1000000]⟩
abbrev S250000 : Shape := ⟨1, ![250000]⟩
abbrev S128x256 : Shape := ⟨2, ![128, 256]⟩
abbrev S256 : Shape := ⟨1, ![256]⟩
abbrev S256x256 : Shape := ⟨2, ![256, 256]⟩
abbrev S50000x128 : Shape := ⟨2, ![50000, 128]⟩
abbrev S_ : Shape := ⟨0, ![]⟩
abbrev S1000000x1 : Shape := ⟨2, ![1000000, 1]⟩
abbrev S1000000x128 : Shape := ⟨2, ![1000000, 128]⟩
abbrev S50000 : Shape := ⟨1, ![50000]⟩
abbrev S50000x1 : Shape := ⟨2, ![50000, 1]⟩
abbrev S50000x256 : Shape := ⟨2, ![50000, 256]⟩
abbrev S5000x128 : Shape := ⟨2, ![5000, 128]⟩
abbrev S5000x256 : Shape := ⟨2, ![5000, 256]⟩
abbrev S1x256 : Shape := ⟨2, ![1, 256]⟩
abbrev S10000x256 : Shape := ⟨2, ![10000, 256]⟩
abbrev S250000x1 : Shape := ⟨2, ![250000, 1]⟩
abbrev S250000x256 : Shape := ⟨2, ![250000, 256]⟩
abbrev S10000 : Shape := ⟨1, ![10000]⟩
abbrev S10000x1 : Shape := ⟨2, ![10000, 1]⟩
abbrev S2000x256 : Shape := ⟨2, ![2000, 256]⟩

abbrev nBuf : Space → Nat
  | .hbm => 65
  | .vmem => 18
  | .smem => 0
  | _ => 0

abbrev bufTy : (tb : Table) → Fin (tcTables nBuf tb) → BufTy
  | .hbm, ⟨0, _⟩ => ⟨S200000x128, .f32⟩
  | .hbm, ⟨1, _⟩ => ⟨S1000000, .i32⟩
  | .hbm, ⟨2, _⟩ => ⟨S1000000, .i32⟩
  | .hbm, ⟨3, _⟩ => ⟨S250000, .i32⟩
  | .hbm, ⟨4, _⟩ => ⟨S250000, .i32⟩
  | .hbm, ⟨5, _⟩ => ⟨S128x256, .f32⟩
  | .hbm, ⟨6, _⟩ => ⟨S128x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S50000x128, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x128, .f32⟩
  | .hbm, ⟨21, _⟩ => ⟨S_, .f32⟩
  | .hbm, ⟨22, _⟩ => ⟨S50000x128, .f32⟩
  | .hbm, ⟨23, _⟩ => ⟨S1000000x1, .i32⟩
  | .hbm, ⟨24, _⟩ => ⟨S50000x128, .f32⟩
  | .hbm, ⟨25, _⟩ => ⟨S_, .f32⟩
  | .hbm, ⟨26, _⟩ => ⟨S1000000, .f32⟩
  | .hbm, ⟨27, _⟩ => ⟨S_, .f32⟩
  | .hbm, ⟨28, _⟩ => ⟨S50000, .f32⟩
  | .hbm, ⟨29, _⟩ => ⟨S1000000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S10000x256, .f32⟩
  | .hbm, ⟨39, _⟩ => ⟨S_, .i32⟩
  | .hbm, ⟨40, _⟩ => ⟨S250000, .i32⟩
  | .hbm, ⟨41, _⟩ => ⟨S250000, .i1⟩
  | .hbm, ⟨42, _⟩ => ⟨S_, .i32⟩
  | .hbm, ⟨43, _⟩ => ⟨S250000, .i32⟩
  | .hbm, ⟨44, _⟩ => ⟨S250000, .i32⟩
  | .hbm, ⟨45, _⟩ => ⟨S250000, .i32⟩
  | .hbm, ⟨46, _⟩ => ⟨S250000x1, .i32⟩
  | .hbm, ⟨47, _⟩ => ⟨S250000x256, .f32⟩
  | .hbm, ⟨48, _⟩ => ⟨S_, .f32⟩
  | .hbm, ⟨49, _⟩ => ⟨S10000x256, .f32⟩
  | .hbm, ⟨50, _⟩ => ⟨S250000x1, .i32⟩
  | .hbm, ⟨51, _⟩ => ⟨S10000x256, .f32⟩
  | .hbm, ⟨52, _⟩ => ⟨S_, .f32⟩
  | .hbm, ⟨53, _⟩ => ⟨S250000, .f32⟩
  | .hbm, ⟨54, _⟩ => ⟨S_, .f32⟩
  | .hbm, ⟨55, _⟩ => ⟨S10000, .f32⟩
  | .hbm, ⟨56, _⟩ => ⟨S250000x1, .i32⟩
  | .hbm, ⟨57, _⟩ => ⟨S10000, .f32⟩
  | .hbm, ⟨58, _⟩ => ⟨S_, .f32⟩
  | .hbm, ⟨59, _⟩ => ⟨S10000, .f32⟩
  | .hbm, ⟨60, _⟩ => ⟨S10000, .f32⟩
  | .hbm, ⟨61, _⟩ => ⟨S10000x1, .f32⟩
  | .hbm, ⟨62, _⟩ => ⟨S10000x256, .f32⟩
  | .hbm, ⟨63, _⟩ => ⟨S10000x256, .f32⟩
  | .hbm, ⟨64, _⟩ => ⟨S10000x256, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S128x256, .f32⟩
  | .local _ .vmem, ⟨6, _⟩ => ⟨S256, .f32⟩
  | .local _ .vmem, ⟨7, _⟩ => ⟨S5000x256, .f32⟩
  | .local _ .vmem, ⟨8, _⟩ => ⟨S5000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S256, .f32⟩
  | .local _ .vmem, ⟨16, _⟩ => ⟨S2000x256, .f32⟩
  | .local _ .vmem, ⟨17, _⟩ => ⟨S2000x256, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S200000x128_S50000x128_0_0 : S200000x128.Slices ![0, 0] S50000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  slices_S50000x256_S10000x256_0_0 : S50000x256.Slices ![0, 0] S10000x256
  bcast_S_S250000 : S_.BroadcastsInDim S250000 (![] : Fin 0 → Fin S250000.rank)
  bcast_S250000_S250000x1_0 : S250000.BroadcastsInDim S250000x1 (![0] : Fin 1 → Fin S250000x1.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  broadcasts_S1x256_S2000x256 : S1x256.Broadcasts S2000x256
  gather_S200000x128_S1000000x1_S1000000x128_1_0_n_n_0_1_1128_wf : GatherDims.WF S200000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S5000x128_S128x256_S5000x256_1_0_0_1_n_n_wf : DotDims.WF S5000x128 S128x256 S5000x256 [1] [0] [0] [1] [] []
  gather_S50000x256_S250000x1_S250000x256_1_0_n_n_0_1_1256_wf : GatherDims.WF S50000x256 S250000x1 S250000x256 [1] [0] [] [0] [] 1 ![1, 256]
  scatter_S10000x256_S250000x1_S250000x256_1_0_0_1_wf : ScatterDims.WF S10000x256 S250000x1 S250000x256 [1] [0] [0] 1
  scatter_S10000_S250000x1_S250000_n_0_0_1_wf : ScatterDims.WF S10000 S250000x1 S250000 [] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S10000x256.size a
  hwx1_1 : ∀ i : grid1.Coords, EltTy.bits .f32 = 32 ∨ (Rect.block (s := S10000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S10000x256.size a
  hwx1_5 : ∀ i : grid1.Coords, EltTy.bits .f32 = 32 ∨ (Rect.block (s := S10000x256) S2000x256.size (cc1_transform_5 i) (hinb1_5 i)).WholeWords (EltTy.packing .f32)

variable [Facts₀]

def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S10000x256_S250000x1_S250000x256_1_0_0_1 : ScatterDims S10000x256 S250000x1 S250000x256 where
  updateWindowDims := [1]
  insertedWindowDims := [0]
  scatterDimsToOperandDims := [0]
  indexVectorDim := 1
  wf := scatter_S10000x256_S250000x1_S250000x256_1_0_0_1_wf
def scatter_S10000_S250000x1_S250000_n_0_0_1 : ScatterDims S10000 S250000x1 S250000 where
  updateWindowDims := []
  insertedWindowDims := [0]
  scatterDimsToOperandDims := [0]
  indexVectorDim := 1
  wf := scatter_S10000_S250000x1_S250000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S200000x128 : Shape := ⟨2, ![200000, 128]⟩
abbrev S1000000 : Shape := ⟨1, ![1000000]⟩
abbrev S250000 : Shape := ⟨1, ![250000]⟩
abbrev S128x256 : Shape := ⟨2, ![128, 256]⟩
abbrev S256 : Shape := ⟨1, ![256]⟩
abbrev S256x256 : Shape := ⟨2, ![256, 256]⟩
abbrev S50000x128 : Shape := ⟨2, ![50000, 128]⟩
abbrev S_ : Shape := ⟨0, ![]⟩
abbrev S1000000x1 : Shape := ⟨2, ![1000000, 1]⟩
abbrev S1000000x128 : Shape := ⟨2, ![1000000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S10000x256 : Shape := ⟨2, ![10000, 256]⟩
abbrev S250000x1 : Shape := ⟨2, ![250000, 1]⟩
abbrev S250000x256 : Shape := ⟨2, ![250000, 256]⟩
abbrev S10000 : Shape := ⟨1, ![10000]⟩
abbrev S10000x1 : Shape := ⟨2, ![10000, 1]⟩

abbrev nBuf : Space → Nat
  | .hbm => 78
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S1000000, .i32⟩
  | .hbm, ⟨2, _⟩ => ⟨S1000000, .i32⟩
  | .hbm, ⟨3, _⟩ => ⟨S250000, .i32⟩
  | .hbm, ⟨4, _⟩ => ⟨S250000, .i32⟩
  | .hbm, ⟨5, _⟩ => ⟨S128x256, .f32⟩
  | .hbm, ⟨6, _⟩ => ⟨S128x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S50000x128, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x128, .f32⟩
  | .hbm, ⟨21, _⟩ => ⟨S_, .f32⟩
  | .hbm, ⟨22, _⟩ => ⟨S50000x128, .f32⟩
  | .hbm, ⟨23, _⟩ => ⟨S1000000x1, .i32⟩
  | .hbm, ⟨24, _⟩ => ⟨S50000x128, .f32⟩
  | .hbm, ⟨25, _⟩ => ⟨S_, .f32⟩
  | .hbm, ⟨26, _⟩ => ⟨S1000000, .f32⟩
  | .hbm, ⟨27, _⟩ => ⟨S_, .f32⟩
  | .hbm, ⟨28, _⟩ => ⟨S50000, .f32⟩
  | .hbm, ⟨29, _⟩ => ⟨S1000000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S10000x256, .f32⟩
  | .hbm, ⟨47, _⟩ => ⟨S_, .i32⟩
  | .hbm, ⟨48, _⟩ => ⟨S250000, .i32⟩
  | .hbm, ⟨49, _⟩ => ⟨S250000, .i1⟩
  | .hbm, ⟨50, _⟩ => ⟨S_, .i32⟩
  | .hbm, ⟨51, _⟩ => ⟨S250000, .i32⟩
  | .hbm, ⟨52, _⟩ => ⟨S250000, .i32⟩
  | .hbm, ⟨53, _⟩ => ⟨S250000, .i32⟩
  | .hbm, ⟨54, _⟩ => ⟨S250000x1, .i32⟩
  | .hbm, ⟨55, _⟩ => ⟨S250000x256, .f32⟩
  | .hbm, ⟨56, _⟩ => ⟨S_, .f32⟩
  | .hbm, ⟨57, _⟩ => ⟨S10000x256, .f32⟩
  | .hbm, ⟨58, _⟩ => ⟨S250000x1, .i32⟩
  | .hbm, ⟨59, _⟩ => ⟨S10000x256, .f32⟩
  | .hbm, ⟨60, _⟩ => ⟨S_, .f32⟩
  | .hbm, ⟨61, _⟩ => ⟨S250000, .f32⟩
  | .hbm, ⟨62, _⟩ => ⟨S_, .f32⟩
  | .hbm, ⟨63, _⟩ => ⟨S10000, .f32⟩
  | .hbm, ⟨64, _⟩ => ⟨S250000x1, .i32⟩
  | .hbm, ⟨65, _⟩ => ⟨S10000, .f32⟩
  | .hbm, ⟨66, _⟩ => ⟨S_, .f32⟩
  | .hbm, ⟨67, _⟩ => ⟨S10000, .f32⟩
  | .hbm, ⟨68, _⟩ => ⟨S10000, .f32⟩
  | .hbm, ⟨69, _⟩ => ⟨S10000x1, .f32⟩
  | .hbm, ⟨70, _⟩ => ⟨S10000x256, .f32⟩
  | .hbm, ⟨71, _⟩ => ⟨S10000x256, .f32⟩
  | .hbm, ⟨72, _⟩ => ⟨S10000x256, .f32⟩
  | .hbm, ⟨73, _⟩ => ⟨S10000x256, .f32⟩
  | .hbm, ⟨74, _⟩ => ⟨S10000x256, .f32⟩
  | .hbm, ⟨75, _⟩ => ⟨S1x256, .f32⟩
  | .hbm, ⟨76, _⟩ => ⟨S10000x256, .f32⟩
  | .hbm, ⟨77, _⟩ => ⟨S10000x256, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]

class Facts₀ : Prop where
  slices_S200000x128_S50000x128_0_0 : S200000x128.Slices ![0, 0] S50000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S50000x256_S10000x256_0_0 : S50000x256.Slices ![0, 0] S10000x256
  bcast_S_S250000 : S_.BroadcastsInDim S250000 (![] : Fin 0 → Fin S250000.rank)
  bcast_S250000_S250000x1_0 : S250000.BroadcastsInDim S250000x1 (![0] : Fin 1 → Fin S250000x1.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S1x256_S10000x256_0_1 : S1x256.BroadcastsInDim S10000x256 (![0, 1] : Fin 2 → Fin S10000x256.rank)
  gather_S200000x128_S1000000x1_S1000000x128_1_0_n_n_0_1_1128_wf : GatherDims.WF S200000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S50000x128_S128x256_S50000x256_1_0_0_1_n_n_wf : DotDims.WF S50000x128 S128x256 S50000x256 [1] [0] [0] [1] [] []
  gather_S50000x256_S250000x1_S250000x256_1_0_n_n_0_1_1256_wf : GatherDims.WF S50000x256 S250000x1 S250000x256 [1] [0] [] [0] [] 1 ![1, 256]
  scatter_S10000x256_S250000x1_S250000x256_1_0_0_1_wf : ScatterDims.WF S10000x256 S250000x1 S250000x256 [1] [0] [0] 1
  scatter_S10000_S250000x1_S250000_n_0_0_1_wf : ScatterDims.WF S10000 S250000x1 S250000 [] [0] [0] 1
  dot_S10000x256_S256x256_S10000x256_1_0_0_1_n_n_wf : DotDims.WF S10000x256 S256x256 S10000x256 [1] [0] [0] [1] [] []

variable [Facts₀]

def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S10000x256_S250000x1_S250000x256_1_0_0_1 : ScatterDims S10000x256 S250000x1 S250000x256 where
  updateWindowDims := [1]
  insertedWindowDims := [0]
  scatterDimsToOperandDims := [0]
  indexVectorDim := 1
  wf := scatter_S10000x256_S250000x1_S250000x256_1_0_0_1_wf
def scatter_S10000_S250000x1_S250000_n_0_0_1 : ScatterDims S10000 S250000x1 S250000 where
  updateWindowDims := []
  insertedWindowDims := [0]
  scatterDimsToOperandDims := [0]
  indexVectorDim := 1
  wf := scatter_S10000_S250000x1_S250000_n_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.DenseSpec.lean ====
/-
  One dense layer of the graph convolution, as a function of whole arrays and as the body computes it on a block.

  For a row-normalised aggregate A and the target rows X (both M×K), weights Wl, Wr (K×N) and a bias b (N), the
  layer's entry at (r, q) is

      Σ_c A(r, c) · Wl(c, q)  +  Σ_c X(r, c) · Wr(c, q)  +  b(q),

  and the first layer clamps it below at the zero word. The kernel's body computes exactly this on an m×k block of
  rows: two products into the zero accumulator, their sum, the bias row broadcast down the block (and the maximum
  with zero). The casts to the narrow float format around the products are the identity on exact values, so nothing
  of them is left. Every sum here is over the same index in the same order on both sides: no law of the extended
  reals beyond reading the operations at an index is used.
-/
import Idealize.ShloMosaic.PureOps.Ideal.Laws
import Idealize.ShloMosaic.Lib.ValueIdx
import Idealize.ShloMosaic.Lib.Pipeline.Value
import proofs.«107598_j3350074490962_1_alg».proof.Proof.LibMatmulPlain

noncomputable section

open scoped BigOperators

namespace Cert.SageDense

open Idealize.ShloMosaic Idealize.ShloMosaic.ValueIdx

/-- Row `r` of an M×N index. -/
abbrev rowOf {M N : Nat} (j : (⟨2, ![M, N]⟩ : Shape).Idx) : Fin M := ⟨(j 0).val, (j 0).isLt⟩
/-- Column `q` of an M×N index. -/
abbrev colOf {M N : Nat} (j : (⟨2, ![M, N]⟩ : Shape).Idx) : Fin N := ⟨(j 1).val, (j 1).isLt⟩

/-- The dense layer on whole arrays, entry by entry: A·Wl + X·Wr + b. -/
def dense (M K N : Nat) (A X : (⟨2, ![M, K]⟩ : Shape).Idx → EReal) (Wl Wr : (⟨2, ![K, N]⟩ : Shape).Idx → EReal)
    (b : (⟨1, ![N]⟩ : Shape).Idx → EReal) : (⟨2, ![M, N]⟩ : Shape).Idx → EReal := fun j =>
  (∑ c : Fin K, A (ix2 (rowOf j) c) * Wl (ix2 c (colOf j))) + (∑ c : Fin K, X (ix2 (rowOf j) c) * Wr (ix2 c (colOf j)))
    + b (ix1 (colOf j))

/-- The same, clamped below at the zero word (the first layer). -/
def denseRelu (M K N : Nat) (A X : (⟨2, ![M, K]⟩ : Shape).Idx → EReal) (Wl Wr : (⟨2, ![K, N]⟩ : Shape).Idx → EReal)
    (b : (⟨1, ![N]⟩ : Shape).Idx → EReal) : (⟨2, ![M, N]⟩ : Shape).Idx → EReal := fun j =>
  max (dense M K N A X Wl Wr b j) (Ideal.ofBits .f32 0x00000000#32)

theorem dense_ix2 (M K N : Nat) (A X : (⟨2, ![M, K]⟩ : Shape).Idx → EReal) (Wl Wr : (⟨2, ![K, N]⟩ : Shape).Idx → EReal)
    (b : (⟨1, ![N]⟩ : Shape).Idx → EReal) (r : Fin M) (q : Fin N) :
    dense M K N A X Wl Wr b (ix2 r q)
      = (∑ c : Fin K, A (ix2 r c) * Wl (ix2 c q)) + (∑ c : Fin K, X (ix2 r c) * Wr (ix2 c q)) + b (ix1 q) := rfl

theorem denseRelu_ix2 (M K N : Nat) (A X : (⟨2, ![M, K]⟩ : Shape).Idx → EReal) (Wl Wr : (⟨2, ![K, N]⟩ : Shape).Idx → EReal)
    (b : (⟨1, ![N]⟩ : Shape).Idx → EReal) (r : Fin M) (q : Fin N) :
    denseRelu M K N A X Wl Wr b (ix2 r q)
      = max ((∑ c : Fin K, A (ix2 r c) * Wl (ix2 c q)) + (∑ c : Fin K, X (ix2 r c) * Wr (ix2 c q)) + b (ix1 q))
          (Ideal.ofBits .f32 0x00000000#32) := rfl

/-! ## The body's arithmetic on one block -/

/-- What the body computes from its five loaded blocks, before any clamp: the two products of the narrowed
    operands into zero, added, plus the bias row broadcast down the rows. -/
def blockDense (m k n : Nat) (hb : FTy.bf16.bits < FTy.f32.bits)
    (h1 : (⟨2, ![m, k]⟩ : Shape).ShapeCasts ⟨2, ![m, k]⟩) (h2 : (⟨1, ![n]⟩ : Shape).ShapeCasts ⟨2, ![1, n]⟩)
    (h3 : (⟨2, ![1, n]⟩ : Shape).Broadcasts ⟨2, ![m, n]⟩)
    (a x : FVec Ideal ⟨2, ![m, k]⟩ .f32) (wl wr : FVec Ideal ⟨2, ![k, n]⟩ .f32) (b : FVec Ideal ⟨1, ![n]⟩ .f32) :
    FVec Ideal ⟨2, ![m, n]⟩ .f32 :=
  addf (addf (matmul (DotDims.plain m k n) none (truncf .bf16 (shapeCast ⟨2, ![m, k]⟩ a h1) hb) (truncf .bf16 wl hb)
                (constant ⟨2, ![m, n]⟩ .f32 0x00000000#32))
             (matmul (DotDims.plain m k n) none (truncf .bf16 (shapeCast ⟨2, ![m, k]⟩ x h1) hb) (truncf .bf16 wr hb)
                (constant ⟨2, ![m, n]⟩ .f32 0x00000000#32)))
       (broadcastTo ⟨2, ![m, n]⟩ (shapeCast ⟨2, ![1, n]⟩ b h2) h3)

/-- A length-n vector viewed as one row, read at (0, q), is the vector at q. -/
theorem rowView_apply {α : Type} {n : Nat} (b : (⟨1, ![n]⟩ : Shape).Idx → α)
    (h2 : (⟨1, ![n]⟩ : Shape).ShapeCasts ⟨2, ![1, n]⟩) (q : Fin n) :
    shapeCast ⟨2, ![1, n]⟩ b h2 (ix2 0 q) = b (ix1 q) := by
  refine (shapeCast_addUnit_apply ![n] b h2 (ix2 0 q)).trans (congrArg b ?_)
  funext d; match d with | ⟨0, _⟩ => rfl

/-- The block's entry at (r, q): the two sums over the contracted coordinate, plus the bias at q. -/
theorem blockDense_apply (m k n : Nat) (hb : FTy.bf16.bits < FTy.f32.bits)
    (h1 : (⟨2, ![m, k]⟩ : Shape).ShapeCasts ⟨2, ![m, k]⟩) (h2 : (⟨1, ![n]⟩ : Shape).ShapeCasts ⟨2, ![1, n]⟩)
    (h3 : (⟨2, ![1, n]⟩ : Shape).Broadcasts ⟨2, ![m, n]⟩)
    (a x : FVec Ideal ⟨2, ![m, k]⟩ .f32) (wl wr : FVec Ideal ⟨2, ![k, n]⟩ .f32) (b : FVec Ideal ⟨1, ![n]⟩ .f32)
    (r : Fin m) (q : Fin n) :
    blockDense m k n hb h1 h2 h3 a x wl wr b (ix2 r q)
      = (∑ c : Fin k, a (ix2 r c) * wl (ix2 c q)) + (∑ c : Fin k, x (ix2 r c) * wr (ix2 c q)) + b (ix1 q) := by
  unfold blockDense
  rw [addf_apply, addf_apply]
  simp only [matmul]
  rw [Cert.LibMatmulPlain.matmul_plain_zero_apply, Cert.LibMatmulPlain.matmul_plain_zero_apply,
    Cert.LibMatmulPlain.rowBroadcast_apply, rowView_apply, shapeCast_self, shapeCast_self]
  rfl

end Cert.SageDense

end
-- ==== Proof.Layer1Value.lean ====
/-
  The first dense layer as the kernel computes it, block by block.

  The grid has ten points; point t reads rows [5000·t, 5000·t + 5000) of the normalised aggregate and of the target
  rows, the two weight matrices and the bias whole, and writes rows [5000·t, 5000·t + 5000) of the output. Entry
  (r, q) of what it writes is therefore the dense layer's entry (5000·t + r, q) of the whole arrays, clamped at zero;
  the ten row blocks tile the 50000 rows, so after the last write-back the output array is the clamped dense layer
  of the arrays the region was entered with. Everything is stated for ANY contents `V` of the buffers at region entry.
-/
import proofs.«107598_j3350074490962_1_alg».proof.Proof.Gen.KernelIdeal.Frame
import Idealize.ShloMosaic.Lib.Pipeline.Value
import proofs.«107598_j3350074490962_1_alg».proof.Proof.DenseSpec

set_option maxRecDepth 16384

noncomputable section

open scoped BigOperators

namespace Cert.KernelIdeal.Layer1

open Cert.KernelIdeal Cert.KernelIdeal.Gen Idealize.ShloMosaic Idealize.ShloMosaic.TcCoe Idealize.SL.Sem
open Idealize.ShloMosaic.ValueIdx Cert.SageDense
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl
theorem zeroOff1 : (![0] : Fin 1 → Nat) = fun _ => 0 := funext fun a => by fin_cases a; rfl

/-- The body's value at (r, q) of its block: the two sums over the 128 input channels, the bias, the clamp. -/
theorem body_apply (x0 x1 : Vec Ideal S5000x128 .f32) (x2 x3 : Vec Ideal S128x256 .f32) (x4 : Vec Ideal S256 .f32)
    (r : Fin 5000) (q : Fin 256) :
    k0_pay1 (F := Ideal) x0 x1 x2 x3 x4 (ix2 r q)
      = max ((∑ c : Fin 128, x0 (ix2 r c) * x2 (ix2 c q)) + (∑ c : Fin 128, x1 (ix2 r c) * x3 (ix2 c q)) + x4 (ix1 q))
          (Ideal.ofBits .f32 0x00000000#32) := by
  show maximumf (blockDense 5000 128 256 bitsLt_bf16_f32 shapeCasts_S5000x128_S5000x128 shapeCasts_S256_S1x256
      broadcasts_S1x256_S5000x256 x0 x1 x2 x3 x4) (broadcast S5000x256 (Scalar.ofBits .f32 0x00000000#32)) (ix2 r q) = _
  rw [maximumf_apply, blockDense_apply]
  rfl

/-- A block of the body's values is the matching block of the clamped dense layer, given how the five loaded
    blocks sit in their arrays: the two row blocks at row offset 5000·T, the weights and the bias whole. -/
theorem body_block (A X : S50000x128.Idx → EReal) (Wl Wr : S128x256.Idx → EReal) (b : S256.Idx → EReal)
    (x0 x1 : Vec Ideal S5000x128 .f32) (x2 x3 : Vec Ideal S128x256 .f32) (x4 : Vec Ideal S256 .f32) (T : Nat)
    (h0 : ∀ (r : Fin 5000) (c : Fin 128) (i : S50000x128.Idx), (i 0).val = T * 5000 + r.val → (i 1).val = c.val → x0 (ix2 r c) = A i)
    (h1 : ∀ (r : Fin 5000) (c : Fin 128) (i : S50000x128.Idx), (i 0).val = T * 5000 + r.val → (i 1).val = c.val → x1 (ix2 r c) = X i)
    (h2 : x2 = Wl) (h3 : x3 = Wr) (h4 : x4 = b)
    (j : S5000x256.Idx) (i : S50000x256.Idx) (hi0 : (i 0).val = T * 5000 + (j 0).val) (hi1 : (i 1).val = (j 1).val) :
    k0_pay1 (F := Ideal) x0 x1 x2 x3 x4 j = denseRelu 50000 128 256 A X Wl Wr b i := by
  obtain ⟨r, q, rfl⟩ : ∃ (r : Fin 5000) (q : Fin 256), j = ix2 r q := ⟨j 0, j 1, eq_ix2 j⟩
  obtain ⟨r', q', rfl⟩ : ∃ (r' : Fin 50000) (q' : Fin 256), i = ix2 r' q' := ⟨i 0, i 1, eq_ix2 i⟩
  have hq : q' = q := Fin.ext hi1
  subst hq h2 h3 h4
  rw [body_apply, denseRelu_ix2]
  have e0 : ∀ c : Fin 128, x0 (ix2 r c) = A (ix2 r' c) := fun c => h0 r c (ix2 r' c) hi0 rfl
  have e1 : ∀ c : Fin 128, x1 (ix2 r c) = X (ix2 r' c) := fun c => h1 r c (ix2 r' c) hi0 rfl
  simp only [e0, e1]

/-! ## The index maps over the grid, and the blocks read off their arrays -/

/-- The row-block windows (aggregate, target rows, output) sit at block (t, 0); the weights and the bias at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Point t's block of the aggregate: rows 5000·t + r. -/
theorem read_agg (c : Dev nD) (t : Fin cfg0.N) (r : Fin 5000) (k : Fin 128) (i : S50000x128.Idx)
    (hi0 : (i 0).val = t.val * 5000 + r.val) (hi1 : (i 1).val = k.val) :
    iblk0 V c 0 t (ix2 r k) = V c main_v19 i := by
  obtain ⟨e0, e1, -⟩ := index_facts t
  show V c main_v19 (((cfg0.win 0).blk t).view.emb (ix2 r k)) = V c main_v19 i
  refine congrArg (V c main_v19) ?_
  funext a; apply Fin.ext
  match a with
  | ⟨0, _⟩ => show win0_0.index t (0 : Fin 2) * 5000 + 1 * r.val = (i 0).val; omega
  | ⟨1, _⟩ => show win0_0.index t (1 : Fin 2) * 128 + 1 * k.val = (i 1).val; omega

/-- Point t's block of the target rows: rows 5000·t + r. -/
theorem read_tgt (c : Dev nD) (t : Fin cfg0.N) (r : Fin 5000) (k : Fin 128) (i : S50000x128.Idx)
    (hi0 : (i 0).val = t.val * 5000 + r.val) (hi1 : (i 1).val = k.val) :
    iblk0 V c 1 t (ix2 r k) = V c main_v0 i := by
  obtain ⟨-, -, e0, e1, -⟩ := index_facts t
  show V c main_v0 (((cfg0.win 1).blk t).view.emb (ix2 r k)) = V c main_v0 i
  refine congrArg (V c main_v0) ?_
  funext a; apply Fin.ext
  match a with
  | ⟨0, _⟩ => show win0_1.index t (0 : Fin 2) * 5000 + 1 * r.val = (i 0).val; omega
  | ⟨1, _⟩ => show win0_1.index t (1 : Fin 2) * 128 + 1 * k.val = (i 1).val; omega

/-- The left weights are read whole at every point. -/
theorem read_wl (c : Dev nD) (t : Fin cfg0.N) : iblk0 V c 2 t = V c main_arg5 := by
  obtain ⟨-, -, -, -, e0, e1, -⟩ := index_facts t
  funext y
  show V c main_arg5 (((cfg0.win 2).blk t).view.emb y) = V c main_arg5 y
  refine congrArg (V c main_arg5) ?_
  funext a; apply Fin.ext
  match a with
  | ⟨0, _⟩ => show win0_2.index t (0 : Fin 2) * 128 + 1 * (y 0).val = (y 0).val; omega
  | ⟨1, _⟩ => show win0_2.index t (1 : Fin 2) * 256 + 1 * (y 1).val = (y 1).val; omega

/-- The right weights are read whole at every point. -/
theorem read_wr (c : Dev nD) (t : Fin cfg0.N) : iblk0 V c 3 t = V c main_arg6 := by
  obtain ⟨-, -, -, -, -, -, e0, e1, -⟩ := index_facts t
  funext y
  show V c main_arg6 (((cfg0.win 3).blk t).view.emb y) = V c main_arg6 y
  refine congrArg (V c main_arg6) ?_
  funext a; apply Fin.ext
  match a with
  | ⟨0, _⟩ => show win0_3.index t (0 : Fin 2) * 128 + 1 * (y 0).val = (y 0).val; omega
  | ⟨1, _⟩ => show win0_3.index t (1 : Fin 2) * 256 + 1 * (y 1).val = (y 1).val; omega

/-- The bias is read whole at every point. -/
theorem read_bias (c : Dev nD) (t : Fin cfg0.N) : iblk0 V c 4 t = V c main_arg7 := by
  obtain ⟨-, -, -, -, -, -, -, -, e0, -⟩ := index_facts t
  funext y
  show V c main_arg7 (((cfg0.win 4).blk t).view.emb y) = V c main_arg7 y
  refine congrArg (V c main_arg7) ?_
  funext a; apply Fin.ext
  match a with
  | ⟨0, _⟩ => show win0_4.index t (0 : Fin 1) * 256 + 1 * (y 0).val = (y 0).val; omega

/-! ## What a point writes back, the cover, and the array after the region -/

/-- The clamped dense layer of the arrays the region is entered with. -/
abbrev layer (c : Dev nD) : S50000x256.Idx → EReal :=
  denseRelu 50000 128 256 (V c main_v19) (V c main_v0) (V c main_arg5) (V c main_arg6) (V c main_arg7)

/-- Point t writes back rows [5000·t, 5000·t + 5000) of the clamped dense layer. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero zeroOff]
  simp only [View.ld_unit_zero (S := S5000x128) zeroOff, View.ld_unit_zero (S := S128x256) zeroOff,
    View.ld_unit_zero (S := S256) zeroOff1]
  rw [read_wl V c t, read_wr V c t, read_bias V c t]
  obtain ⟨-, -, -, -, -, -, -, -, -, e0, e1⟩ := index_facts t
  funext j
  show k0_pay1 (F := Ideal) (iblk0 V c 0 t) (iblk0 V c 1 t) (V c main_arg5) (V c main_arg6) (V c main_arg7) j
    = layer V c (((cfg0.win 5).blk t).view.emb j)
  refine body_block (V c main_v19) (V c main_v0) (V c main_arg5) (V c main_arg6) (V c main_arg7) _ _ _ _ _ t.val
    (fun r k i h0 h1 => read_agg V c t r k i h0 h1) (fun r k i h0 h1 => read_tgt V c t r k i h0 h1) rfl rfl rfl j _ ?_ ?_
  · show win0_5.index t (0 : Fin 2) * 5000 + 1 * (j 0).val = t.val * 5000 + (j 0).val; omega
  · show win0_5.index t (1 : Fin 2) * 256 + 1 * (j 1).val = (j 1).val; omega

/-- An index of the output array lies in point t's block iff its row is in [5000·t, 5000·t + 5000). -/
theorem mem_blk (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v20).slice (win0_5.rect t)).set ↔ _
  rw [View.set_slice_whole, Rect.mem_set_unit]
  exact Iff.rfl

/-- Every row of the output is in some point's block: row ρ in point ρ / 5000's. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  refine ⟨⟨(i 0).val / 5000, by show (i 0).val / 5000 < 10; omega⟩, flush0_5 _, ?_⟩
  rw [mem_blk]
  obtain ⟨-, -, -, -, -, -, -, -, -, e0, e1⟩ := index_facts ⟨(i 0).val / 5000, by show (i 0).val / 5000 < 10; omega⟩
  intro a
  match a with
  | ⟨0, _⟩ => show win0_5.index _ (0 : Fin 2) * 5000 ≤ (i 0).val ∧ (i 0).val < win0_5.index _ (0 : Fin 2) * 5000 + 5000; rw [e0]; show (i 0).val / 5000 * 5000 ≤ _ ∧ _ < (i 0).val / 5000 * 5000 + 5000; omega
  | ⟨1, _⟩ => show win0_5.index _ (1 : Fin 2) * 256 ≤ (i 1).val ∧ (i 1).val < win0_5.index _ (1 : Fin 2) * 256 + 256; rw [e1]; omega

/-- THE OUTPUT ARRAY after the region: the clamped dense layer of the arrays it was entered with. -/
theorem final (c : Dev nD) : (dat0 V c).arrAt 5 cfg0.N = layer V c :=
  (dat0 V c).arrAt_eq_of_cover 5 (layer V c) (fun t _ => flushed_eq V c t) (cover)

end Cert.KernelIdeal.Layer1

end
-- ==== Proof.Layer2Value.lean ====
/-
  The second dense layer as the kernel computes it, block by block.

  The grid has five points; point t reads rows [2000·t, 2000·t + 2000) of the normalised aggregate of the hidden
  features and of the hidden target rows, the two 256×256 weight matrices and the bias whole, and writes rows
  [2000·t, 2000·t + 2000) of the result. Entry (r, q) of what it writes is the dense layer's entry (2000·t + r, q) of
  the whole arrays (no clamp in this layer); the five row blocks tile the 10000 rows, so after the last write-back the
  result array is the dense layer of the arrays the region was entered with. Stated for ANY contents `V` of the
  buffers at region entry.
-/
import proofs.«107598_j3350074490962_1_alg».proof.Proof.Gen.KernelIdeal.Frame
import Idealize.ShloMosaic.Lib.Pipeline.Value
import proofs.«107598_j3350074490962_1_alg».proof.Proof.DenseSpec

set_option maxRecDepth 16384

noncomputable section

open scoped BigOperators

namespace Cert.KernelIdeal.Layer2

open Cert.KernelIdeal Cert.KernelIdeal.Gen Idealize.ShloMosaic Idealize.ShloMosaic.TcCoe Idealize.SL.Sem
open Idealize.ShloMosaic.ValueIdx Cert.SageDense
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl
theorem zeroOff1 : (![0] : Fin 1 → Nat) = fun _ => 0 := funext fun a => by fin_cases a; rfl

/-- The body's value at (r, q) of its block: the two sums over the 256 hidden channels, plus the bias. -/
theorem body_apply (x0 x1 : Vec Ideal S2000x256 .f32) (x2 x3 : Vec Ideal S256x256 .f32) (x4 : Vec Ideal S256 .f32)
    (r : Fin 2000) (q : Fin 256) :
    k1_pay1 (F := Ideal) x0 x1 x2 x3 x4 (ix2 r q)
      = (∑ c : Fin 256, x0 (ix2 r c) * x2 (ix2 c q)) + (∑ c : Fin 256, x1 (ix2 r c) * x3 (ix2 c q)) + x4 (ix1 q) := by
  show blockDense 2000 256 256 bitsLt_bf16_f32 shapeCasts_S2000x256_S2000x256 shapeCasts_S256_S1x256
      broadcasts_S1x256_S2000x256 x0 x1 x2 x3 x4 (ix2 r q) = _
  rw [blockDense_apply]

/-- A block of the body's values is the matching block of the dense layer, given how the five loaded blocks sit in
    their arrays: the two row blocks at row offset 2000·T, the weights and the bias whole. -/
theorem body_block (A X : S10000x256.Idx → EReal) (Wl Wr : S256x256.Idx → EReal) (b : S256.Idx → EReal)
    (x0 x1 : Vec Ideal S2000x256 .f32) (x2 x3 : Vec Ideal S256x256 .f32) (x4 : Vec Ideal S256 .f32) (T : Nat)
    (h0 : ∀ (r : Fin 2000) (c : Fin 256) (i : S10000x256.Idx), (i 0).val = T * 2000 + r.val → (i 1).val = c.val → x0 (ix2 r c) = A i)
    (h1 : ∀ (r : Fin 2000) (c : Fin 256) (i : S10000x256.Idx), (i 0).val = T * 2000 + r.val → (i 1).val = c.val → x1 (ix2 r c) = X i)
    (h2 : x2 = Wl) (h3 : x3 = Wr) (h4 : x4 = b)
    (j : S2000x256.Idx) (i : S10000x256.Idx) (hi0 : (i 0).val = T * 2000 + (j 0).val) (hi1 : (i 1).val = (j 1).val) :
    k1_pay1 (F := Ideal) x0 x1 x2 x3 x4 j = dense 10000 256 256 A X Wl Wr b i := by
  obtain ⟨r, q, rfl⟩ : ∃ (r : Fin 2000) (q : Fin 256), j = ix2 r q := ⟨j 0, j 1, eq_ix2 j⟩
  obtain ⟨r', q', rfl⟩ : ∃ (r' : Fin 10000) (q' : Fin 256), i = ix2 r' q' := ⟨i 0, i 1, eq_ix2 i⟩
  have hq : q' = q := Fin.ext hi1
  subst hq h2 h3 h4
  rw [body_apply, dense_ix2]
  have e0 : ∀ c : Fin 256, x0 (ix2 r c) = A (ix2 r' c) := fun c => h0 r c (ix2 r' c) hi0 rfl
  have e1 : ∀ c : Fin 256, x1 (ix2 r c) = X (ix2 r' c) := fun c => h1 r c (ix2 r' c) hi0 rfl
  simp only [e0, e1]

/-! ## The index maps over the grid, and the blocks read off their arrays -/

/-- The row-block windows (aggregate, target rows, result) sit at block (t, 0); the weights and the bias at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Point t's block of the aggregate: rows 2000·t + r. -/
theorem read_agg (c : Dev nD) (t : Fin cfg1.N) (r : Fin 2000) (k : Fin 256) (i : S10000x256.Idx)
    (hi0 : (i 0).val = t.val * 2000 + r.val) (hi1 : (i 1).val = k.val) :
    iblk1 V c 0 t (ix2 r k) = V c main_v40 i := by
  obtain ⟨e0, e1, -⟩ := index_facts t
  show V c main_v40 (((cfg1.win 0).blk t).view.emb (ix2 r k)) = V c main_v40 i
  refine congrArg (V c main_v40) ?_
  funext a; apply Fin.ext
  match a with
  | ⟨0, _⟩ => show win1_0.index t (0 : Fin 2) * 2000 + 1 * r.val = (i 0).val; omega
  | ⟨1, _⟩ => show win1_0.index t (1 : Fin 2) * 256 + 1 * k.val = (i 1).val; omega

/-- Point t's block of the hidden target rows: rows 2000·t + r. -/
theorem read_tgt (c : Dev nD) (t : Fin cfg1.N) (r : Fin 2000) (k : Fin 256) (i : S10000x256.Idx)
    (hi0 : (i 0).val = t.val * 2000 + r.val) (hi1 : (i 1).val = k.val) :
    iblk1 V c 1 t (ix2 r k) = V c main_v21 i := by
  obtain ⟨-, -, e0, e1, -⟩ := index_facts t
  show V c main_v21 (((cfg1.win 1).blk t).view.emb (ix2 r k)) = V c main_v21 i
  refine congrArg (V c main_v21) ?_
  funext a; apply Fin.ext
  match a with
  | ⟨0, _⟩ => show win1_1.index t (0 : Fin 2) * 2000 + 1 * r.val = (i 0).val; omega
  | ⟨1, _⟩ => show win1_1.index t (1 : Fin 2) * 256 + 1 * k.val = (i 1).val; omega

/-- The left weights are read whole at every point. -/
theorem read_wl (c : Dev nD) (t : Fin cfg1.N) : iblk1 V c 2 t = V c main_arg8 := by
  obtain ⟨-, -, -, -, e0, e1, -⟩ := index_facts t
  funext y
  show V c main_arg8 (((cfg1.win 2).blk t).view.emb y) = V c main_arg8 y
  refine congrArg (V c main_arg8) ?_
  funext a; apply Fin.ext
  match a with
  | ⟨0, _⟩ => show win1_2.index t (0 : Fin 2) * 256 + 1 * (y 0).val = (y 0).val; omega
  | ⟨1, _⟩ => show win1_2.index t (1 : Fin 2) * 256 + 1 * (y 1).val = (y 1).val; omega

/-- The right weights are read whole at every point. -/
theorem read_wr (c : Dev nD) (t : Fin cfg1.N) : iblk1 V c 3 t = V c main_arg9 := by
  obtain ⟨-, -, -, -, -, -, e0, e1, -⟩ := index_facts t
  funext y
  show V c main_arg9 (((cfg1.win 3).blk t).view.emb y) = V c main_arg9 y
  refine congrArg (V c main_arg9) ?_
  funext a; apply Fin.ext
  match a with
  | ⟨0, _⟩ => show win1_3.index t (0 : Fin 2) * 256 + 1 * (y 0).val = (y 0).val; omega
  | ⟨1, _⟩ => show win1_3.index t (1 : Fin 2) * 256 + 1 * (y 1).val = (y 1).val; omega

/-- The bias is read whole at every point. -/
theorem read_bias (c : Dev nD) (t : Fin cfg1.N) : iblk1 V c 4 t = V c main_arg10 := by
  obtain ⟨-, -, -, -, -, -, -, -, e0, -⟩ := index_facts t
  funext y
  show V c main_arg10 (((cfg1.win 4).blk t).view.emb y) = V c main_arg10 y
  refine congrArg (V c main_arg10) ?_
  funext a; apply Fin.ext
  match a with
  | ⟨0, _⟩ => show win1_4.index t (0 : Fin 1) * 256 + 1 * (y 0).val = (y 0).val; omega

/-! ## What a point writes back, the cover, and the array after the region -/

/-- The dense layer of the arrays the region is entered with. -/
abbrev layer (c : Dev nD) : S10000x256.Idx → EReal :=
  dense 10000 256 256 (V c main_v40) (V c main_v21) (V c main_arg8) (V c main_arg9) (V c main_arg10)

/-- Point t writes back rows [2000·t, 2000·t + 2000) of the dense layer. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero zeroOff]
  simp only [View.ld_unit_zero (S := S2000x256) zeroOff, View.ld_unit_zero (S := S256x256) zeroOff,
    View.ld_unit_zero (S := S256) zeroOff1]
  rw [read_wl V c t, read_wr V c t, read_bias V c t]
  obtain ⟨-, -, -, -, -, -, -, -, -, e0, e1⟩ := index_facts t
  funext j
  show k1_pay1 (F := Ideal) (iblk1 V c 0 t) (iblk1 V c 1 t) (V c main_arg8) (V c main_arg9) (V c main_arg10) j
    = layer V c (((cfg1.win 5).blk t).view.emb j)
  refine body_block (V c main_v40) (V c main_v21) (V c main_arg8) (V c main_arg9) (V c main_arg10) _ _ _ _ _ t.val
    (fun r k i h0 h1 => read_agg V c t r k i h0 h1) (fun r k i h0 h1 => read_tgt V c t r k i h0 h1) rfl rfl rfl j _ ?_ ?_
  · show win1_5.index t (0 : Fin 2) * 2000 + 1 * (j 0).val = t.val * 2000 + (j 0).val; omega
  · show win1_5.index t (1 : Fin 2) * 256 + 1 * (j 1).val = (j 1).val; omega

/-- An index of the result array lies in point t's block iff its row is in [2000·t, 2000·t + 2000). -/
theorem mem_blk (t : Fin cfg1.N) (i : S10000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v41).slice (win1_5.rect t)).set ↔ _
  rw [View.set_slice_whole, Rect.mem_set_unit]
  exact Iff.rfl

/-- Every row of the result is in some point's block: row ρ in point ρ / 2000's. -/
theorem cover (i : S10000x256.Idx) : ∃ t : Fin cfg1.N, (cfg1.win 5).flush t = true ∧ i ∈ ((cfg1.win 5).blk t).view.set := by
  have hi0 : (i 0).val < 10000 := (i 0).isLt
  have hi1 : (i 1).val < 256 := (i 1).isLt
  refine ⟨⟨(i 0).val / 2000, by show (i 0).val / 2000 < 5; omega⟩, flush1_5 _, ?_⟩
  rw [mem_blk]
  obtain ⟨-, -, -, -, -, -, -, -, -, e0, e1⟩ := index_facts ⟨(i 0).val / 2000, by show (i 0).val / 2000 < 5; omega⟩
  intro a
  match a with
  | ⟨0, _⟩ => show win1_5.index _ (0 : Fin 2) * 2000 ≤ (i 0).val ∧ (i 0).val < win1_5.index _ (0 : Fin 2) * 2000 + 2000; rw [e0]; show (i 0).val / 2000 * 2000 ≤ _ ∧ _ < (i 0).val / 2000 * 2000 + 2000; omega
  | ⟨1, _⟩ => show win1_5.index _ (1 : Fin 2) * 256 ≤ (i 1).val ∧ (i 1).val < win1_5.index _ (1 : Fin 2) * 256 + 256; rw [e1]; omega

/-- THE RESULT ARRAY after the region: the dense layer of the arrays it was entered with. -/
theorem final (c : Dev nD) : (dat1 V c).arrAt 5 cfg1.N = layer V c :=
  (dat1 V c).arrAt_eq_of_cover 5 (layer V c) (fun t _ => flushed_eq V c t) (cover)

end Cert.KernelIdeal.Layer2

end
-- ==== Proof.RefValue.lean ====
/-
  The reference, read as two dense layers around two mean aggregations.

  Layer 1: the mean aggregation of the gathered source rows over each target's incoming edges (the scatter-added
  messages divided by the clamped in-degree) and the first 50000 rows of x go through the dense layer A·Wl1 + X·Wr1 + b1
  and the clamp at zero: the hidden array. Layer 2: the same mean aggregation of the hidden array's rows over the second
  edge list, and the hidden array's first 10000 rows, go through the dense layer with Wl2, Wr2, b2: the result.
  The two aggregations are carried as they are printed (a gather and a scatter-add are not opened); only the dense
  layers are read entry by entry, each product as its sum over the contracted coordinate.
-/
import proofs.«107598_j3350074490962_1_alg».proof.Proof.Gen.ReferenceIdeal.Read
import proofs.«107598_j3350074490962_1_alg».proof.Proof.DenseSpec

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.TcCoe
open Idealize.SL.Sem Idealize.ShloMosaic.StableHlo Idealize.ShloMosaic.ValueIdx Cert.SageDense

/-- The second mean aggregation as a function of the hidden array and the second edge list: the rows of `h` at the
    (wrapped) source indices, scatter-added at the target indices, divided by the clamped in-degree. -/
def meanAgg2 (h : (⟨S50000x256, .f32⟩ : BufTy).Contents (Elt Ideal)) (x3 x4 : (⟨S250000, .i32⟩ : BufTy).Contents (Elt Ideal)) :
    (⟨S10000x256, .f32⟩ : BufTy).Contents (Elt Ideal) :=
  Host.divf (F := Ideal) (φ := .f32) (Host.scatterAdd (F := Ideal) (φ := .f32) scatter_S10000x256_S250000x1_S250000x256_1_0_0_1 (val_main_v35 (F := Ideal)) (val_main_v36 (F := Ideal) x4)
      (Host.gather (α := Ideal .f32) gather_S50000x256_S250000x1_S250000x256_1_0_n_n_0_1_1256 h (val_main_v33 (F := Ideal) x3)))
    (val_main_v45 (F := Ideal) x4)

/-- The first 10000 rows of the hidden array. -/
def firstRows (h : (⟨S50000x256, .f32⟩ : BufTy).Contents (Elt Ideal)) : (⟨S10000x256, .f32⟩ : BufTy).Contents (Elt Ideal) :=
  extractStridedSlice S10000x256 ![0, 0] h slices_S50000x256_S10000x256_0_0

/-- The hidden array: the clamped dense layer of the first mean aggregation and the first 50000 rows of x. -/
def hidden (x0 : (⟨S200000x128, .f32⟩ : BufTy).Contents (Elt Ideal)) (x1 x2 : (⟨S1000000, .i32⟩ : BufTy).Contents (Elt Ideal)) (x5 x6 : (⟨S128x256, .f32⟩ : BufTy).Contents (Elt Ideal)) (x7 : (⟨S256, .f32⟩ : BufTy).Contents (Elt Ideal)) : S50000x256.Idx → EReal :=
  denseRelu 50000 128 256 (val_main_v19 (F := Ideal) x0 x1 x2) (val_main_v0 (F := Ideal) x0) x5 x6 x7

/-- The whole computation: the second dense layer of the second mean aggregation of the hidden array and of its
    first rows. -/
def sage (x0 : (⟨S200000x128, .f32⟩ : BufTy).Contents (Elt Ideal)) (x1 x2 : (⟨S1000000, .i32⟩ : BufTy).Contents (Elt Ideal)) (x3 x4 : (⟨S250000, .i32⟩ : BufTy).Contents (Elt Ideal)) (x5 x6 : (⟨S128x256, .f32⟩ : BufTy).Contents (Elt Ideal)) (x7 : (⟨S256, .f32⟩ : BufTy).Contents (Elt Ideal)) (x8 x9 : (⟨S256x256, .f32⟩ : BufTy).Contents (Elt Ideal)) (x10 : (⟨S256, .f32⟩ : BufTy).Contents (Elt Ideal)) : S10000x256.Idx → EReal :=
  dense 10000 256 256 (meanAgg2 (hidden x0 x1 x2 x5 x6 x7) x3 x4) (firstRows (hidden x0 x1 x2 x5 x6 x7)) x8 x9 x10

/-- The reference's hidden array (after its relu) is the clamped dense layer, entry by entry. -/
theorem hidden_eq (x0 : (⟨S200000x128, .f32⟩ : BufTy).Contents (Elt Ideal)) (x1 x2 : (⟨S1000000, .i32⟩ : BufTy).Contents (Elt Ideal)) (x5 x6 : (⟨S128x256, .f32⟩ : BufTy).Contents (Elt Ideal)) (x7 : (⟨S256, .f32⟩ : BufTy).Contents (Elt Ideal)) :
    val_main_v26 (F := Ideal) x0 x1 x2 x5 x6 x7 = hidden x0 x1 x2 x5 x6 x7 := by
  funext i
  obtain ⟨r, q, rfl⟩ : ∃ (r : Fin 50000) (q : Fin 256), i = ix2 r q := ⟨i 0, i 1, eq_ix2 i⟩
  unfold hidden
  rw [val_main_v26_apply, val_main_v25_apply, val_main_v22_apply, val_main_v20_apply, val_main_v21_apply,
    val_main_v24_apply, val_main_v23_apply, val_main_call0_v0_apply, val_main_call0_cst_apply, denseRelu_ix2]
  have el : ∀ k : Fin 128, lidx_main_v20 (ix2 r q) k = ix2 r k := fun k => funext fun a => by
    match a with | ⟨0, _⟩ => rfl | ⟨1, _⟩ => rfl
  have er : ∀ k : Fin 128, ridx_main_v20 (ix2 r q) k = ix2 k q := fun k => funext fun a => by
    match a with | ⟨0, _⟩ => rfl | ⟨1, _⟩ => rfl
  have el' : ∀ k : Fin 128, lidx_main_v21 (ix2 r q) k = ix2 r k := fun k => funext fun a => by
    match a with | ⟨0, _⟩ => rfl | ⟨1, _⟩ => rfl
  have er' : ∀ k : Fin 128, ridx_main_v21 (ix2 r q) k = ix2 k q := fun k => funext fun a => by
    match a with | ⟨0, _⟩ => rfl | ⟨1, _⟩ => rfl
  have eb : idx_main_v23 (idx_main_v24 (ix2 r q)) = ix1 q := funext fun a => by
    match a with | ⟨0, _⟩ => rfl
  simp only [el, er, el', er', eb]
  rfl

/-- The reference's result is the second dense layer of ITS second aggregation and ITS slice of the hidden array. -/
theorem result_eq (x0 : (⟨S200000x128, .f32⟩ : BufTy).Contents (Elt Ideal)) (x1 x2 : (⟨S1000000, .i32⟩ : BufTy).Contents (Elt Ideal)) (x3 x4 : (⟨S250000, .i32⟩ : BufTy).Contents (Elt Ideal)) (x5 x6 : (⟨S128x256, .f32⟩ : BufTy).Contents (Elt Ideal)) (x7 : (⟨S256, .f32⟩ : BufTy).Contents (Elt Ideal)) (x8 x9 : (⟨S256x256, .f32⟩ : BufTy).Contents (Elt Ideal)) (x10 : (⟨S256, .f32⟩ : BufTy).Contents (Elt Ideal)) :
    val_main_v52 (F := Ideal) x0 x1 x2 x3 x4 x5 x6 x7 x8 x9 x10
      = dense 10000 256 256 (val_main_v46 (F := Ideal) x0 x1 x2 x3 x4 x5 x6 x7) (val_main_v27 (F := Ideal) x0 x1 x2 x5 x6 x7) x8 x9 x10 := by
  funext i
  obtain ⟨r, q, rfl⟩ : ∃ (r : Fin 10000) (q : Fin 256), i = ix2 r q := ⟨i 0, i 1, eq_ix2 i⟩
  rw [val_main_v52_apply, val_main_v49_apply, val_main_v47_apply, val_main_v48_apply, val_main_v51_apply,
    val_main_v50_apply, dense_ix2]
  have el : ∀ k : Fin 256, lidx_main_v47 (ix2 r q) k = ix2 r k := fun k => funext fun a => by
    match a with | ⟨0, _⟩ => rfl | ⟨1, _⟩ => rfl
  have er : ∀ k : Fin 256, ridx_main_v47 (ix2 r q) k = ix2 k q := fun k => funext fun a => by
    match a with | ⟨0, _⟩ => rfl | ⟨1, _⟩ => rfl
  have el' : ∀ k : Fin 256, lidx_main_v48 (ix2 r q) k = ix2 r k := fun k => funext fun a => by
    match a with | ⟨0, _⟩ => rfl | ⟨1, _⟩ => rfl
  have er' : ∀ k : Fin 256, ridx_main_v48 (ix2 r q) k = ix2 k q := fun k => funext fun a => by
    match a with | ⟨0, _⟩ => rfl | ⟨1, _⟩ => rfl
  have eb : idx_main_v50 (idx_main_v51 (ix2 r q)) = ix1 q := funext fun a => by
    match a with | ⟨0, _⟩ => rfl
  simp only [el, er, el', er', eb]
  rfl

/-- The reference's second aggregation is `meanAgg2` of its hidden array: the stages between them, unfolded. -/
theorem agg2_eq (x0 : (⟨S200000x128, .f32⟩ : BufTy).Contents (Elt Ideal)) (x1 x2 : (⟨S1000000, .i32⟩ : BufTy).Contents (Elt Ideal)) (x3 x4 : (⟨S250000, .i32⟩ : BufTy).Contents (Elt Ideal)) (x5 x6 : (⟨S128x256, .f32⟩ : BufTy).Contents (Elt Ideal)) (x7 : (⟨S256, .f32⟩ : BufTy).Contents (Elt Ideal)) :
    val_main_v46 (F := Ideal) x0 x1 x2 x3 x4 x5 x6 x7 = meanAgg2 (val_main_v26 (F := Ideal) x0 x1 x2 x5 x6 x7) x3 x4 := by
  unfold val_main_v46 val_main_v37 val_main_v34 meanAgg2
  rfl

/-- The reference's slice is the first rows of its hidden array. -/
theorem rows_eq (x0 : (⟨S200000x128, .f32⟩ : BufTy).Contents (Elt Ideal)) (x1 x2 : (⟨S1000000, .i32⟩ : BufTy).Contents (Elt Ideal)) (x5 x6 : (⟨S128x256, .f32⟩ : BufTy).Contents (Elt Ideal)) (x7 : (⟨S256, .f32⟩ : BufTy).Contents (Elt Ideal)) :
    val_main_v27 (F := Ideal) x0 x1 x2 x5 x6 x7 = firstRows (val_main_v26 (F := Ideal) x0 x1 x2 x5 x6 x7) := rfl

/-- THE REFERENCE'S VALUE: its result is `sage` of its arguments. -/
theorem value (x0 : (⟨S200000x128, .f32⟩ : BufTy).Contents (Elt Ideal)) (x1 x2 : (⟨S1000000, .i32⟩ : BufTy).Contents (Elt Ideal)) (x3 x4 : (⟨S250000, .i32⟩ : BufTy).Contents (Elt Ideal)) (x5 x6 : (⟨S128x256, .f32⟩ : BufTy).Contents (Elt Ideal)) (x7 : (⟨S256, .f32⟩ : BufTy).Contents (Elt Ideal)) (x8 x9 : (⟨S256x256, .f32⟩ : BufTy).Contents (Elt Ideal)) (x10 : (⟨S256, .f32⟩ : BufTy).Contents (Elt Ideal)) :
    val_main_v52 (F := Ideal) x0 x1 x2 x3 x4 x5 x6 x7 x8 x9 x10 = sage x0 x1 x2 x3 x4 x5 x6 x7 x8 x9 x10 := by
  rw [result_eq, agg2_eq, rows_eq, hidden_eq]
  rfl

end Cert.ReferenceIdeal.RefValue

end
-- ==== Proof.KernelValue.lean ====
/-
  The kernel's result as a function of its arguments.

  The result buffer ends at what the second region's write-backs leave, which is the second dense layer of the
  contents that region was entered with: the second mean aggregation of the first region's output (the host
  operations between the regions: wrap the source indices, gather the rows, scatter-add at the targets, divide by
  the clamped in-degree), that output's first 10000 rows, and the second layer's weights and bias, untouched since
  launch. The first region's output is the clamped dense layer of the contents IT was entered with: the first mean
  aggregation of x (the host operations before it), x's first 50000 rows, and the first layer's weights and bias.
  The host operations are the very ones the reference applies — the same operations with the same dimension
  records — so they are named by the reference's own stage functions and never read at an index.
-/
import proofs.«107598_j3350074490962_1_alg».proof.Proof.Gen.KernelIdeal.Frame
import Idealize.ShloMosaic.Lib.StableHlo.Run
import proofs.«107598_j3350074490962_1_alg».proof.Proof.Layer1Value
import proofs.«107598_j3350074490962_1_alg».proof.Proof.Layer2Value
import proofs.«107598_j3350074490962_1_alg».proof.Proof.RefValue

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo Cert.SageDense

/-! ## The two programs' gather and scatter records are the same records -/

theorem gather1_rec : Cert.KernelIdeal.gather_S200000x128_S1000000x1_S1000000x128_1_0_n_n_0_1_1128
    = Cert.ReferenceIdeal.gather_S200000x128_S1000000x1_S1000000x128_1_0_n_n_0_1_1128 := rfl
theorem scatter1_rec : Cert.KernelIdeal.scatter_S50000x128_S1000000x1_S1000000x128_1_0_0_1
    = Cert.ReferenceIdeal.scatter_S50000x128_S1000000x1_S1000000x128_1_0_0_1 := rfl
theorem count1_rec : Cert.KernelIdeal.scatter_S50000_S1000000x1_S1000000_n_0_0_1
    = Cert.ReferenceIdeal.scatter_S50000_S1000000x1_S1000000_n_0_0_1 := rfl
theorem gather2_rec : Cert.KernelIdeal.gather_S50000x256_S250000x1_S250000x256_1_0_n_n_0_1_1256
    = Cert.ReferenceIdeal.gather_S50000x256_S250000x1_S250000x256_1_0_n_n_0_1_1256 := rfl
theorem scatter2_rec : Cert.KernelIdeal.scatter_S10000x256_S250000x1_S250000x256_1_0_0_1
    = Cert.ReferenceIdeal.scatter_S10000x256_S250000x1_S250000x256_1_0_0_1 := rfl
theorem count2_rec : Cert.KernelIdeal.scatter_S10000_S250000x1_S250000_n_0_0_1
    = Cert.ReferenceIdeal.scatter_S10000_S250000x1_S250000_n_0_0_1 := rfl

variable (m : (ℓ : Loc nD τ sig) → Buf (Elt Ideal) ℓ) (ρ : Dev nD → PrngReg)

/-! ## The contents the first region is entered with -/

set_option maxHeartbeats 4000000 in
/-- The aggregate window's array: the first mean aggregation of the launch contents. -/
theorem entry1_agg (c : Dev nD) :
    V1 m ρ c main_v19 = Cert.ReferenceIdeal.Read.val_main_v19 (F := Ideal) (m ((c : Thread nD τ).loc main_arg0)) (m ((c : Thread nD τ).loc main_arg1)) (m ((c : Thread nD τ).loc main_arg2)) := by
  dsimp only [V1, W1, hostOps0]
  after_results_simp
  unfold Cert.ReferenceIdeal.Read.val_main_v19 Cert.ReferenceIdeal.Read.val_main_v10 Cert.ReferenceIdeal.Read.val_main_v18 Cert.ReferenceIdeal.Read.val_main_v17 Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_v11 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_c Cert.ReferenceIdeal.Read.val_main_c_0 Cert.ReferenceIdeal.Read.val_main_cst Cert.ReferenceIdeal.Read.val_main_cst_1 Cert.ReferenceIdeal.Read.val_main_cst_2 Cert.ReferenceIdeal.Read.val_main_cst_3
  rw [gather1_rec, scatter1_rec, count1_rec]

/-- The target-rows window's array: the first 50000 rows of x. -/
theorem entry1_rows (c : Dev nD) :
    V1 m ρ c main_v0 = Cert.ReferenceIdeal.Read.val_main_v0 (F := Ideal) (m ((c : Thread nD τ).loc main_arg0)) := by
  dsimp only [V1, W1, hostOps0]
  after_results_simp <;> rfl

theorem entry1_wl (c : Dev nD) : V1 m ρ c main_arg5 = (m ((c : Thread nD τ).loc main_arg5)) := by
  dsimp only [V1, W1, hostOps0]
  after_results_simp <;> rfl
theorem entry1_wr (c : Dev nD) : V1 m ρ c main_arg6 = (m ((c : Thread nD τ).loc main_arg6)) := by
  dsimp only [V1, W1, hostOps0]
  after_results_simp <;> rfl
theorem entry1_bias (c : Dev nD) : V1 m ρ c main_arg7 = (m ((c : Thread nD τ).loc main_arg7)) := by
  dsimp only [V1, W1, hostOps0]
  after_results_simp <;> rfl

/-! ## The first region's output -/

/-- After the first region its output array is the hidden array of the launch contents. -/
theorem hidden_value (c : Dev nD) :
    W2 m ρ c (Proc.devRef .tc main_v20)
      = Cert.ReferenceIdeal.RefValue.hidden (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  refine (W2_arr m ρ c 5).trans ((Cert.KernelIdeal.Layer1.final (V1 m ρ) c).trans ?_)
  unfold Cert.KernelIdeal.Layer1.layer Cert.ReferenceIdeal.RefValue.hidden
  rw [entry1_agg, entry1_rows, entry1_wl, entry1_wr, entry1_bias]

/-! ## The contents the second region is entered with -/

/-- Arguments the first stretch and the first region leave alone, read at the first region's exit. -/
theorem exit1_src (c : Dev nD) : W2 m ρ c (Proc.devRef .tc main_arg3) = (m ((c : Thread nD τ).loc main_arg3)) :=
  (W2_of_ne m ρ c main_arg3 (by decide)).trans (by
    show StableHlo.after hostOps0 (W0 m ρ c) (Proc.devRef .tc main_arg3) = _
    dsimp only [hostOps0]
    after_results_simp <;> rfl)
theorem exit1_dst (c : Dev nD) : W2 m ρ c (Proc.devRef .tc main_arg4) = (m ((c : Thread nD τ).loc main_arg4)) :=
  (W2_of_ne m ρ c main_arg4 (by decide)).trans (by
    show StableHlo.after hostOps0 (W0 m ρ c) (Proc.devRef .tc main_arg4) = _
    dsimp only [hostOps0]
    after_results_simp <;> rfl)
theorem exit1_wl (c : Dev nD) : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    dsimp only [hostOps0]
    after_results_simp <;> rfl)
theorem exit1_wr (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    dsimp only [hostOps0]
    after_results_simp <;> rfl)
theorem exit1_bias (c : Dev nD) : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    dsimp only [hostOps0]
    after_results_simp <;> rfl)

set_option maxHeartbeats 4000000 in
/-- The aggregate window's array: the second mean aggregation of the first region's output. -/
theorem entry2_agg (c : Dev nD) :
    V3 m ρ c main_v40 = Cert.ReferenceIdeal.RefValue.meanAgg2 (W2 m ρ c (Proc.devRef .tc main_v20))
      (W2 m ρ c (Proc.devRef .tc main_arg3)) (W2 m ρ c (Proc.devRef .tc main_arg4)) := by
  dsimp only [V3, W3, hostOps1]
  after_results_simp
  unfold Cert.ReferenceIdeal.RefValue.meanAgg2 Cert.ReferenceIdeal.Read.val_main_v45 Cert.ReferenceIdeal.Read.val_main_v44 Cert.ReferenceIdeal.Read.val_main_v43 Cert.ReferenceIdeal.Read.val_main_v42 Cert.ReferenceIdeal.Read.val_main_v41 Cert.ReferenceIdeal.Read.val_main_v40 Cert.ReferenceIdeal.Read.val_main_v39 Cert.ReferenceIdeal.Read.val_main_v38 Cert.ReferenceIdeal.Read.val_main_v36 Cert.ReferenceIdeal.Read.val_main_v35 Cert.ReferenceIdeal.Read.val_main_v33 Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_c_4 Cert.ReferenceIdeal.Read.val_main_c_5 Cert.ReferenceIdeal.Read.val_main_cst_6 Cert.ReferenceIdeal.Read.val_main_cst_7 Cert.ReferenceIdeal.Read.val_main_cst_8 Cert.ReferenceIdeal.Read.val_main_cst_9
  rw [gather2_rec, scatter2_rec, count2_rec]

/-- The target-rows window's array: the first 10000 rows of the first region's output. -/
theorem entry2_rows (c : Dev nD) :
    V3 m ρ c main_v21 = Cert.ReferenceIdeal.RefValue.firstRows (W2 m ρ c (Proc.devRef .tc main_v20)) := by
  dsimp only [V3, W3, hostOps1]
  after_results_simp <;> rfl

theorem entry2_wl (c : Dev nD) : V3 m ρ c main_arg8 = W2 m ρ c (Proc.devRef .tc main_arg8) := by
  dsimp only [V3, W3, hostOps1]
  after_results_simp <;> rfl
theorem entry2_wr (c : Dev nD) : V3 m ρ c main_arg9 = W2 m ρ c (Proc.devRef .tc main_arg9) := by
  dsimp only [V3, W3, hostOps1]
  after_results_simp <;> rfl
theorem entry2_bias (c : Dev nD) : V3 m ρ c main_arg10 = W2 m ρ c (Proc.devRef .tc main_arg10) := by
  dsimp only [V3, W3, hostOps1]
  after_results_simp <;> rfl

/-! ## The result -/

/-- THE KERNEL'S VALUE: the result buffer ends at `sage` of the launch contents. -/
theorem value (c : Dev nD) :
    W4 m ρ c (Proc.devRef .tc main_v41)
      = Cert.ReferenceIdeal.RefValue.sage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 5).trans ((Cert.KernelIdeal.Layer2.final (V3 m ρ) c).trans ?_)
  unfold Cert.KernelIdeal.Layer2.layer Cert.ReferenceIdeal.RefValue.sage
  rw [entry2_agg, entry2_rows, entry2_wl, entry2_wr, entry2_bias, hidden_value, exit1_src, exit1_dst, exit1_wl, exit1_wr, exit1_bias]

end Cert.KernelIdeal.KernelValue

end
-- ==== Proof.lean ====
/-
  Two-layer graph convolution with mean aggregation: the kernel's entry point against its jnp reference, over the
  extended reals.

  Both programs compute, for x (200000×128), two edge lists and two layers' weights and biases,

      hidden = max(mean₁(x)·Wl1 + x[:50000]·Wr1 + b1, 0)         (50000×256)
      result = mean₂(hidden)·Wl2 + hidden[:10000]·Wr2 + b2        (10000×256)

  where meanₖ gathers rows at the (wrapped) source indices, scatter-adds them at the target indices and divides by
  the in-degree clamped below at one. The two programs apply the SAME host operations for meanₖ and for the slices;
  they differ only in the dense layers, which the kernel computes in two pallas_calls over row blocks (products of
  operands narrowed to a 16-bit float format, which is the identity on exact values) and the reference as whole-array
  products. Proof/DenseSpec.lean states a dense layer entry by entry and reads the kernel body's block of it;
  Proof/Layer1Value.lean and Proof/Layer2Value.lean read each region's output array off its write-backs;
  Proof/KernelRun.lean is the kernel's run with the result buffer named; Proof/KernelValue.lean follows the result back
  through the regions and the host operations between them to the launch contents; Proof/RefValue.lean reads the
  reference's run as the same function. No law of the extended reals is needed beyond reading the operations at an
  index — both sides are the same sums in the same order — so the precondition (finite inputs) is never opened.
  The idealization rewrote nothing, so `preserves` is `True`.
-/
import proofs.«107598_j3350074490962_1_alg».proof.Defs
import proofs.«107598_j3350074490962_1_alg».proof.Proof.Gen.Kernel
import proofs.«107598_j3350074490962_1_alg».proof.Proof.Gen.Kernel.Skeleton
import proofs.«107598_j3350074490962_1_alg».proof.Proof.Gen.Kernel.Launch
import proofs.«107598_j3350074490962_1_alg».proof.Proof.Gen.Kernel.Points
import proofs.«107598_j3350074490962_1_alg».proof.Proof.Gen.Kernel.Frame
import proofs.«107598_j3350074490962_1_alg».proof.Proof.Gen.KernelIdeal
import proofs.«107598_j3350074490962_1_alg».proof.Proof.Gen.KernelIdeal.Skeleton
import proofs.«107598_j3350074490962_1_alg».proof.Proof.Gen.KernelIdeal.Launch
import proofs.«107598_j3350074490962_1_alg».proof.Proof.Gen.KernelIdeal.Points
import proofs.«107598_j3350074490962_1_alg».proof.Proof.Gen.KernelIdeal.Frame
import proofs.«107598_j3350074490962_1_alg».proof.Proof.Gen.ReferenceIdeal
import proofs.«107598_j3350074490962_1_alg».proof.Proof.Gen.Pre_finite_inputs
import proofs.«107598_j3350074490962_1_alg».proof.Proof.Gen.ReferenceIdeal.Run
import proofs.«107598_j3350074490962_1_alg».proof.Proof.Gen.ReferenceIdeal.Read
import proofs.«107598_j3350074490962_1_alg».proof.Proof.KernelRun
import proofs.«107598_j3350074490962_1_alg».proof.Proof.KernelValue
import proofs.«107598_j3350074490962_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result at the two-layer function `sage` of
    the arguments: the kernel by following its result buffer back through its two regions, the reference by reading
    its run. -/
theorem algebraic : Cert.algebraic_KernelIdeal_ReferenceIdeal := by
  intro m ρ m' ρ' _ hagree
  refine ⟨fun c => Cert.ReferenceIdeal.RefValue.sage (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KernelValue.value m ρ c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v52_eq, Cert.ReferenceIdeal.RefValue.value, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
